-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x32x128 : Shape := ⟨3, ![11008, 32, 128]⟩
abbrev S11008x32 : Shape := ⟨2, ![11008, 32]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x32x128 32) (main_arg2 : FVec F S11008x32 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x32x128 : Shape := ⟨3, ![11008, 32, 128]⟩
abbrev S11008x32 : Shape := ⟨2, ![11008, 32]⟩
abbrev S11008 : Shape := ⟨1, ![11008]⟩
abbrev S8192x4096 : Shape := ⟨2, ![8192, 4096]⟩
abbrev S11008x32x1 : Shape := ⟨3, ![11008, 32, 1]⟩
abbrev S11008x4096 : Shape := ⟨2, ![11008, 4096]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x32x128, .i32⟩
  | .hbm, ⟨2, _⟩ => ⟨S11008x32, .f32⟩
  | .hbm, ⟨3, _⟩ => ⟨S11008, .f32⟩
  | .hbm, ⟨4, _⟩ => ⟨S8192x4096, .f32⟩
  | .hbm, ⟨5, _⟩ => ⟨S8192x4096, .bf16⟩
  | .hbm, ⟨6, _⟩ => ⟨S11008x32x128, .f32⟩
  | .hbm, ⟨7, _⟩ => ⟨S11008x32x1, .f32⟩
  | .hbm, ⟨8, _⟩ => ⟨S11008x32x128, .f32⟩
  | .hbm, ⟨9, _⟩ => ⟨S11008x32x128, .f32⟩
  | .hbm, ⟨10, _⟩ => ⟨S11008x4096, .f32⟩
  | .hbm, ⟨11, _⟩ => ⟨S11008x4096, .bf16⟩
  | .hbm, ⟨12, _⟩ => ⟨S1x11008, .f32⟩
  | .hbm, ⟨13, _⟩ => ⟨S8192x11008, .f32⟩
  | .hbm, ⟨14, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x32x128 : Shape := ⟨3, ![11008, 32, 128]⟩
abbrev S11008x32 : Shape := ⟨2, ![11008, 32]⟩
abbrev S11008 : Shape := ⟨1, ![11008]⟩
abbrev S11008x32x1 : Shape := ⟨3, ![11008, 32, 1]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x32x128, .i32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S4x2048x11008, .f32⟩
  | .hbm, ⟨10, _⟩ => ⟨S1x1x11008, .f32⟩
  | .hbm, ⟨11, _⟩ => ⟨S4x2048x11008, .f32⟩
  | .hbm, ⟨12, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BlockProduct.lean ====
/-
  One grid point of the quantized linear layer. The body multiplies a [1024, 4096] block of activation rows by a
  [256, 4096] block of dequantized weight rows along their common last axis (a product with the second factor
  transposed, accumulated from zero) and adds a [1, 256] row of biases to every row of the [1024, 256] product.
  Read at the entry (p, q) at the ideal instance, where the narrow float format is the identity and the
  accumulation is an exact finite sum, the stored value is  Σ_k x[p, k] · w[q, k] + b[0, q].
-/
import proofs.«419120_j33406255628618_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.QLinear

open Cert.KernelIdeal Cert.KernelIdeal.Gen Idealize.ShloMosaic Idealize.ShloMosaic.ValueIdx

/-! ## The operand indices of the contraction, axis by axis -/

/-- The left operand's row is the result's row. -/
theorem lhs_axis0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- The left operand's column is the summation index. -/
theorem lhs_axis1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The right operand's row is the result's column: the second factor enters transposed. -/
theorem rhs_axis0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- The right operand's column is the summation index. -/
theorem rhs_axis1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-! ## The product and the payload at an entry -/

/-- The block product accumulated from zero, at the entry (p, q): the sum over the 4096 common columns of the
    products of row p of the first block with row q of the second. -/
theorem product_entry (x : FVec Ideal S1024x4096 .bf16) (w : FVec Ideal S256x4096 .bf16) (p : Fin 1024) (q : Fin 256) :
    matmul (F := Ideal) dot_S1024x4096_S256x4096_S1024x256_1_1_0_0_n_n none x w (constant S1024x256 .f32 0x00000000#32) (ix2 p q)
      = ∑ k : Fin 4096, x (ix2 p k) * w (ix2 q k) := by
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The bias row spread over the 1024 rows reads, at (p, q), its entry (0, q). -/
theorem bias_entry (b : FVec Ideal S1x256 .f32) (p : Fin 1024) (q : Fin 256) :
    broadcastTo S1024x256 b broadcasts_S1x256_S1024x256 (ix2 p q) = b (ix2 (0 : Fin 1) q) :=
  broadcastTo_apply b broadcasts_S1x256_S1024x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- What the body stores, at the entry (p, q) of its [1024, 256] block. -/
theorem payload_entry (x : Vec Ideal S1024x4096 .bf16) (w : Vec Ideal S256x4096 .bf16) (b : Vec Ideal S1x256 .f32)
    (p : Fin 1024) (q : Fin 256) :
    k0_pay1 (F := Ideal) x w b (ix2 p q) = (∑ k : Fin 4096, x (ix2 p k) * w (ix2 q k)) + b (ix2 (0 : Fin 1) q) := by
  unfold k0_pay1
  rw [addf_apply, shapeCast_self, shapeCast_self, shapeCast_self, product_entry, bias_entry]

end Cert.KernelIdeal.QLinear

end
-- ==== Proof.RegionResult.lean ====
/-
  The region's result array. The grid has 8 × 43 points; at point t the body sees rows 1024·(t / 43) … of the
  activation rows, rows 256·(t mod 43) … of the weight rows and columns 256·(t mod 43) … of the bias row, and writes
  back the [1024, 256] block at (t / 43, t mod 43) of the [8192, 11008] result. Every written block is a block of ONE
  function of the three operand arrays — entry (r, o) is  Σ_k X[r, k] · W[o, k] + B[0, o]  — and the 344 blocks tile
  the result, so after the region the result array is that function.
-/
import proofs.«419120_j33406255628618_3_alg».proof.Proof.Gen.KernelIdeal.Frame
import proofs.«419120_j33406255628618_3_alg».proof.Proof.BlockProduct
import Idealize.ShloMosaic.Lib.Pipeline.Value
import Idealize.ShloMosaic.Lib.ValueIdx

set_option maxRecDepth 16384

noncomputable section

namespace Cert.KernelIdeal.QLinear

open Cert.KernelIdeal Cert.KernelIdeal.Gen Idealize.ShloMosaic Idealize.ShloMosaic.TcCoe Idealize.SL.Sem
open Idealize.ShloMosaic.ValueIdx
open Idealize.ShloMosaic.Pipeline (Dat)

/-- Rows times transposed weight rows plus the bias row: entry (r, o) is Σ_k X[r, k] · W[o, k] + B[0, o]. -/
def rowsAffine (X : Vec Ideal S8192x4096 .bf16) (W : Vec Ideal S11008x4096 .bf16) (B : Vec Ideal S1x11008 .f32) :
    Vec Ideal S8192x11008 .f32 :=
  fun i => (∑ k : Fin 4096, X (ix2 (i 0) k) * W (ix2 (i 1) k)) + B (ix2 (0 : Fin 1) (i 1))

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at the t-th grid point, decided over the 344 points: the result's block is at
    (t / 43, t mod 43); the activation rows follow its row block, the weight rows and the bias columns its column block. -/
theorem block_indices : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43 :=
  (by decide +kernel : ∀ t : Fin grid0.N, _)

/-! ## Each input block is its array read where the window's rectangle says -/

/-- The activation block at point t is rows index·1024 … of the activation rows. -/
theorem rows_block (c : Dev nD) (t : Fin cfg0.N) (y : S1024x4096.Idx) (i : S8192x4096.Idx)
    (h0 : (i 0).val = win0_0.index t (0 : Fin 2) * 1024 + (y 0).val)
    (h1 : (i 1).val = win0_0.index t (1 : Fin 2) * 4096 + (y 1).val) :
    (iblk m c 0 t : Vec Ideal S1024x4096 .bf16) y = (V m c main_v1 : Vec Ideal S8192x4096 .bf16) i := by
  unfold iblk
  rw [View.read_apply]
  show V m c main_v1 _ = V m c main_v1 _
  congr 1
  funext a
  apply Fin.ext
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- The weight block at point t is rows index·256 … of the weight rows. -/
theorem weights_block (c : Dev nD) (t : Fin cfg0.N) (y : S256x4096.Idx) (i : S11008x4096.Idx)
    (h0 : (i 0).val = win0_1.index t (0 : Fin 2) * 256 + (y 0).val)
    (h1 : (i 1).val = win0_1.index t (1 : Fin 2) * 4096 + (y 1).val) :
    (iblk m c 1 t : Vec Ideal S256x4096 .bf16) y = (V m c main_v7 : Vec Ideal S11008x4096 .bf16) i := by
  unfold iblk
  rw [View.read_apply]
  show V m c main_v7 _ = V m c main_v7 _
  congr 1
  funext a
  apply Fin.ext
  match a with
  | ⟨0, _⟩ => show win0_1.index t (0 : Fin 2) * 256 + 1 * (y 0).val = (i 0).val; omega
  | ⟨1, _⟩ => show win0_1.index t (1 : Fin 2) * 4096 + 1 * (y 1).val = (i 1).val; omega

/-- The bias block at point t is columns index·256 … of the bias row. -/
theorem bias_block (c : Dev nD) (t : Fin cfg0.N) (y : S1x256.Idx) (i : S1x11008.Idx)
    (h0 : (i 0).val = win0_2.index t (0 : Fin 2) * 1 + (y 0).val)
    (h1 : (i 1).val = win0_2.index t (1 : Fin 2) * 256 + (y 1).val) :
    (iblk m c 2 t : Vec Ideal S1x256 .f32) y = (V m c main_v8 : Vec Ideal S1x11008 .f32) i := by
  unfold iblk
  rw [View.read_apply]
  show V m c main_v8 _ = V m c main_v8 _
  congr 1
  funext a
  apply Fin.ext
  match a with
  | ⟨0, _⟩ => show win0_2.index t (0 : Fin 2) * 1 + 1 * (y 0).val = (i 0).val; omega
  | ⟨1, _⟩ => show win0_2.index t (1 : Fin 2) * 256 + 1 * (y 1).val = (i 1).val; omega

/-! ## What a point writes back -/

/-- The body's stored value at the entry (p, q) of point t's block is the affine function of the operand arrays at
    the entry of the result array that the block's rectangle puts (p, q) at. -/
theorem stored_entry (c : Dev nD) (t : Fin cfg0.N) (p : Fin 1024) (q : Fin 256) :
    k0_pay1 (F := Ideal) (iblk m c 0 t) (iblk m c 1 t) (iblk m c 2 t) (ix2 p q)
      = rowsAffine (V m c main_v1) (V m c main_v7) (V m c main_v8) (((cfg0.win 3).blk t).view.emb (ix2 p q)) := by
  obtain ⟨f0, f1, f2, f3, f4, f5, f6, f7⟩ := block_indices t
  refine (payload_entry _ _ _ p q).trans ?_
  unfold rowsAffine
  have hr : ((((cfg0.win 3).blk t).view.emb (ix2 p q)) 0).val = win0_3.index t (0 : Fin 2) * 1024 + 1 * p.val := rfl
  have hc : ((((cfg0.win 3).blk t).view.emb (ix2 p q)) 1).val = win0_3.index t (1 : Fin 2) * 256 + 1 * q.val := rfl
  refine congrArg₂ (· + ·) (Finset.sum_congr rfl fun k _ => congrArg₂ (· * ·) ?_ ?_) ?_
  · exact rows_block m c t (ix2 p k) _ (by show _ = win0_0.index t (0 : Fin 2) * 1024 + p.val; rw [hr]; omega)
      (by show k.val = win0_0.index t (1 : Fin 2) * 4096 + k.val; omega)
  · exact weights_block m c t (ix2 q k) _ (by show _ = win0_1.index t (0 : Fin 2) * 256 + q.val; rw [hc]; omega)
      (by show k.val = win0_1.index t (1 : Fin 2) * 4096 + k.val; omega)
  · exact bias_block m c t (ix2 (0 : Fin 1) q) _ (by show (0 : Nat) = win0_2.index t (0 : Fin 2) * 1 + 0; omega)
      (by show _ = win0_2.index t (1 : Fin 2) * 256 + q.val; rw [hc]; omega)

/-- WHAT POINT t WRITES BACK is block t of the affine function of the operand arrays as the region finds them. -/
theorem flushed_eq (c : Dev nD) (t : Fin cfg0.N) :
    (dats m 0 c).flushed 3 t
      = ((cfg0.win 3).blk t).view.read (Elt Ideal) (rowsAffine (V m c main_v1) (V m c main_v7) (V m c main_v8)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S256x4096) zero_offsets,
    View.ld_unit_zero (S := S1x256) zero_offsets]
  funext j
  obtain ⟨p, q, rfl⟩ : ∃ (p : Fin 1024) (q : Fin 256), j = ix2 p q := ⟨j 0, j 1, eq_ix2 j⟩
  exact stored_entry m c t p q

/-! ## The blocks tile the result -/

/-- An entry of the result is in point t's block iff each coordinate is in the block's range on its axis. -/
theorem mem_block (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v9).slice (win0_3.rect t)).set ↔ _
  rw [View.set_slice_whole, Rect.mem_set_unit]
  exact Iff.rfl

/-- Entry (r, o) is written by the point 43·(r / 1024) + o / 256. -/
theorem covered (i : S8192x11008.Idx) :
    ∃ t : Fin cfg0.N, (cfg0.win 3).flush t = true ∧ i ∈ ((cfg0.win 3).blk t).view.set := by
  have h0 : (i 0).val < 8192 := (i 0).isLt
  have h1 : (i 1).val < 11008 := (i 1).isLt
  have hN : cfg0.N = 344 := N_0
  let t : Fin cfg0.N := ⟨(i 0).val / 1024 * 43 + (i 1).val / 256, by rw [hN]; omega⟩
  have ht : t.val = (i 0).val / 1024 * 43 + (i 1).val / 256 := rfl
  obtain ⟨f0, f1, -⟩ := block_indices t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- THE RESULT ARRAY after the region: the affine function of the operand arrays as the region finds them. -/
theorem region_result (c : Dev nD) :
    (dats m 0 c).arrAt 3 cfg0.N = rowsAffine (V m c main_v1) (V m c main_v7) (V m c main_v8) :=
  (dats m 0 c).arrAt_eq_of_cover 3 (rowsAffine (V m c main_v1) (V m c main_v7) (V m c main_v8))
    (fun t _ => flushed_eq m c t) (covered)

end Cert.KernelIdeal.QLinear

end
-- ==== Proof.EntryArrays.lean ====
/-
  What the region finds in its three operand arrays. The host lines before it lay the [4, 2048, 4096] activations
  out as 8192 rows of 4096 and narrow them; turn the integer weight codes into floats, multiply each group of 128
  codes by its group's scale (the [11008, 32] scales spread along a new last axis of 128), lay the [11008, 32, 128]
  product out as 11008 rows of 4096 and narrow it; and lay the 11008 biases out as one row. Each array is that
  composed term of the argument arrays as launched.
-/
import proofs.«419120_j33406255628618_3_alg».proof.Proof.Gen.KernelIdeal.Frame
import Idealize.ShloMosaic.Lib.StableHlo.Run

noncomputable section

namespace Cert.KernelIdeal.QLinear

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The activation rows: the activations as 8192 rows of 4096, narrowed. -/
theorem rows_at_entry (c : Dev nD) :
    (V m c main_v1 : S8192x4096.Idx → Elt F .bf16)
      = truncf .bf16 (shapeCast _ (m ((c : Thread nD τ).loc main_arg0)) shapeCasts_S4x2048x4096_S8192x4096) bitsLt_bf16_f32 := by
  show StableHlo.after hostOps0 (fun b => m (c, b)) (Proc.devRef .tc main_v1) = _
  after_results
  rfl

/-- The dequantized weight rows: code times group scale, as 11008 rows of 4096, narrowed. -/
theorem weights_at_entry (c : Dev nD) :
    (V m c main_v7 : S11008x4096.Idx → Elt F .bf16)
      = truncf .bf16 (shapeCast _ (mulf (sitofp .f32 (m ((c : Thread nD τ).loc main_arg1)))
          (broadcastInDim S11008x32x128 ![0, 1, 2] bcast_S11008x32x1_S11008x32x128_0_1_2
            (broadcastInDim S11008x32x1 ![0, 1] bcast_S11008x32_S11008x32x1_0_1 (m ((c : Thread nD τ).loc main_arg2)))))
          shapeCasts_S11008x32x128_S11008x4096) bitsLt_bf16_f32 := by
  show StableHlo.after hostOps0 (fun b => m (c, b)) (Proc.devRef .tc main_v7) = _
  after_results
  rfl

/-- The bias row: the 11008 biases as one row. -/
theorem bias_at_entry (c : Dev nD) :
    (V m c main_v8 : S1x11008.Idx → Elt F .f32)
      = shapeCast _ (m ((c : Thread nD τ).loc main_arg3)) shapeCasts_S11008_S1x11008 := by
  show StableHlo.after hostOps0 (fun b => m (c, b)) (Proc.devRef .tc main_v8) = _
  after_results
  rfl

end Cert.KernelIdeal.QLinear

end
-- ==== Proof.Layer.lean ====
/-
  The quantized linear layer as one function of its arrays, entry by entry, over the extended reals:
      y[b, s, o] = Σ_k x[b, s, k] · W[o, k] + bias[o],
  x the [4, 2048, 4096] activations, W the [11008, 4096] dequantized weight rows (integer code times its group's
  scale), bias the 11008 biases. Both programs are proved to end with this array.
-/
import Idealize.ShloMosaic.PureOps.Ideal
import Idealize.ShloMosaic.Lib.ValueIdx

noncomputable section

namespace Cert.QLinear

open Idealize.ShloMosaic Idealize.ShloMosaic.ValueIdx

/-- The layer's result at (b, s, o): row (b, s) of the activations against row o of the weights, plus bias o. -/
def layer (x : (⟨3, ![4, 2048, 4096]⟩ : Shape).Idx → EReal) (W : (⟨2, ![11008, 4096]⟩ : Shape).Idx → EReal)
    (bias : (⟨1, ![11008]⟩ : Shape).Idx → EReal) : (⟨3, ![4, 2048, 11008]⟩ : Shape).Idx → EReal :=
  fun i => (∑ k : Fin 4096, x (ix3 (i 0) (i 1) k) * W (ix2 (i 2) k)) + bias (ix1 (i 2))

end Cert.QLinear

end
-- ==== Proof.KernelValue.lean ====
/-
  The idealized kernel's result, read. After the region the [8192, 11008] result array holds, at (r, o),
  Σ_k X[r, k] · W[o, k] + B[0, o] of the operand arrays; the host line after the region lays it out as
  [4, 2048, 11008], row r = 2048·b + s going to (b, s). The operand arrays are themselves re-laid arguments: X[r, k] is
  the activation at (r / 2048, r mod 2048, k), B[0, o] is bias o, and narrowing a float is the identity at the ideal
  instance. Entry by entry the result is therefore the layer's function of the argument arrays.
-/
import proofs.«419120_j33406255628618_3_alg».proof.Proof.Gen.KernelIdeal.Frame
import proofs.«419120_j33406255628618_3_alg».proof.Proof.RegionResult
import proofs.«419120_j33406255628618_3_alg».proof.Proof.EntryArrays
import proofs.«419120_j33406255628618_3_alg».proof.Proof.Layer
import Idealize.ShloMosaic.Lib.StableHlo.Run
import Idealize.ShloMosaic.Lib.Pipeline.Value
import Idealize.ShloMosaic.Lib.ValueIdx

noncomputable section

namespace Cert.KernelIdeal.QLinear

open Cert.KernelIdeal Cert.KernelIdeal.Gen Idealize.ShloMosaic Idealize.ShloMosaic.TcCoe Idealize.SL.Sem
open Idealize.ShloMosaic.StableHlo Idealize.ShloMosaic.ValueIdx Cert.QLinear

variable (m : (ℓ : Loc nD τ sig) → Buf (Elt Ideal) ℓ) (ρ : Dev nD → PrngReg)

/-- The dequantized weight rows as a term of the code and scale arrays: code times group scale, 11008 rows of 4096. -/
abbrev dequantRows (codes : IVec S11008x32x128 32) (scales : FVec Ideal S11008x32 .f32) : FVec Ideal S11008x4096 .f32 :=
  shapeCast _ (mulf (sitofp .f32 codes)
    (broadcastInDim S11008x32x128 ![0, 1, 2] bcast_S11008x32x1_S11008x32x128_0_1_2
      (broadcastInDim S11008x32x1 ![0, 1] bcast_S11008x32_S11008x32x1_0_1 scales)))
    shapeCasts_S11008x32x128_S11008x4096

/-- The result buffer as the host line after the region leaves it: the region's array laid out as [4, 2048, 11008]. -/
theorem result_after_tail (c : Dev nD) :
    Pipeline.afterTail₀ cfgs (dats m) 0 (V0 m) [hostOps1] c main_v10
      = shapeCast _ (rowsAffine (V m c main_v1) (V m c main_v7) (V m c main_v8)) shapeCasts_S8192x11008_S4x2048x11008 := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v9)
      = rowsAffine (V m c main_v1) (V m c main_v7) (V m c main_v8) from
    (Pipeline.withArrays_arr spec0 launch0.win.arr_inj c _ _ 3).trans (region_result m c)]
  rfl

/-- Re-laid rows against re-laid result: the affine function of the narrowed, re-laid arguments, laid out as
    [4, 2048, 11008], is the layer's function of the arguments themselves. -/
theorem relaid_eq_layer (x : FVec Ideal S4x2048x4096 .f32) (Wf : FVec Ideal S11008x4096 .f32) (b : FVec Ideal S11008 .f32) :
    shapeCast S4x2048x11008
        (rowsAffine (truncf .bf16 (shapeCast S8192x4096 x shapeCasts_S4x2048x4096_S8192x4096) bitsLt_bf16_f32)
          (truncf .bf16 Wf bitsLt_bf16_f32) (shapeCast S1x11008 b shapeCasts_S11008_S1x11008))
        shapeCasts_S8192x11008_S4x2048x11008
      = layer x Wf b := by
  funext i
  have h0 : (i 0).val < 4 := (i 0).isLt
  have h1 : (i 1).val < 2048 := (i 1).isLt
  let r : Fin 8192 := ⟨(i 0).val * 2048 + (i 1).val, by omega⟩
  rw [shapeCast_apply _ shapeCasts_S8192x11008_S4x2048x11008 i (ix2 r (i 2))
    (by rewrite [Shape.rowMajor_val_two, Shape.rowMajor_val_three]; rfl)]
  unfold rowsAffine layer
  refine congrArg₂ (· + ·) (Finset.sum_congr rfl fun k _ => congrArg₂ (· * ·) ?_ ?_) ?_
  · rw [truncf_apply]
    exact shapeCast_apply x shapeCasts_S4x2048x4096_S8192x4096 _ (ix3 (i 0) (i 1) k)
      (by rewrite [Shape.rowMajor_val_two, Shape.rowMajor_val_three]; rfl)
  · rfl
  · exact shapeCast_apply b shapeCasts_S11008_S1x11008 _ (ix1 (i 2))
      (by rewrite [Shape.rowMajor_val_two, Shape.rowMajor_val_one]; show (i 2).val = 0 * 11008 + (i 2).val; omega)

/-- The idealized kernel's run, read: the result buffer ends at the layer's function of the argument arrays as
    launched, the arguments unchanged. -/
theorem run : θ_run defs (onTc (τ := τ) (main (F := Ideal))) ⟨m, fun _ => 0, ρ⟩ fun r => ∀ c : Dev nD,
      r.2.mem ((c.tc : Thread nD τ).loc main_v10)
        = layer (m ((c.tc : Thread nD τ).loc main_arg0))
            (dequantRows (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans
        ((result_after_tail m c).trans (by
          rw [rows_at_entry, weights_at_entry, bias_at_entry]
          exact relaid_eq_layer _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.QLinear

end
-- ==== Proof.ReferenceValue.lean ====
/-
  The idealized reference's result, read. The reference dequantizes the weights the same way (code times group scale,
  laid out as 11008 rows of 4096), contracts the activations' last axis with the weight rows' last axis — at the ideal
  instance the exact sum Σ_k x[b, s, k] · W[o, k] — and adds the biases spread over the leading axes. Entry by entry
  that is the layer's function of the argument arrays.
-/
import proofs.«419120_j33406255628618_3_alg».proof.Proof.Gen.ReferenceIdeal.Run
import proofs.«419120_j33406255628618_3_alg».proof.Proof.Gen.ReferenceIdeal.Read
import proofs.«419120_j33406255628618_3_alg».proof.Proof.Layer
import Idealize.ShloMosaic.Lib.ValueIdx

noncomputable section

namespace Cert.ReferenceIdeal.QLinear

open Cert.ReferenceIdeal Cert.ReferenceIdeal.Gen Cert.ReferenceIdeal.Read Idealize.ShloMosaic Idealize.ShloMosaic.TcCoe
open Idealize.SL.Sem Idealize.ShloMosaic.ValueIdx Cert.QLinear

/-- The reference's last stage is the layer's function of the activations, its own dequantized weight rows and the
    biases. -/
theorem result_eq_layer (x0 : (⟨S4x2048x4096, .f32⟩ : BufTy).Contents (Elt Ideal)) (x1 : (⟨S11008x32x128, .i32⟩ : BufTy).Contents (Elt Ideal))
    (x2 : (⟨S11008x32, .f32⟩ : BufTy).Contents (Elt Ideal)) (x3 : (⟨S11008, .f32⟩ : BufTy).Contents (Elt Ideal)) :
    val_main_v8 (F := Ideal) x0 x1 x2 x3 = layer x0 (val_main_v4 (F := Ideal) x1 x2) x3 := by
  funext i
  have el : ∀ k : Fin 4096, lidx_main_v5 i k = ix3 (i 0) (i 1) k := fun k => funext fun a => by
    match a with | ⟨0, _⟩ => rfl | ⟨1, _⟩ => rfl | ⟨2, _⟩ => rfl
  have er : ∀ k : Fin 4096, ridx_main_v5 i k = ix2 (i 2) k := fun k => funext fun a => by
    match a with | ⟨0, _⟩ => rfl | ⟨1, _⟩ => rfl
  have eb : idx_main_v6 (idx_main_v7 i) = ix1 (i 2) := funext fun a => by
    match a with | ⟨0, _⟩ => rfl
  rw [val_main_v8_apply, val_main_v5_apply, val_main_v7_apply, val_main_v6_apply, eb]
  simp only [el, er]
  rfl

end Cert.ReferenceIdeal.QLinear

end
-- ==== Proof.lean ====
/-
  A weight-only quantized linear layer, kernel against reference, over the extended reals.

  Both programs compute  y[b, s, o] = Σ_k x[b, s, k] · W[o, k] + bias[o]  with  W[o, k] = code[o, k / 128, k mod 128] ·
  scale[o, k / 128]  (Proof/Layer.lean). The kernel dequantizes on the host, lays activations and weights out as rows,
  and on an 8 × 43 grid multiplies a [1024, 4096] block of rows by a [256, 4096] block of weight rows, adds the bias
  row and writes a [1024, 256] block of the [8192, 11008] result, which a last host line lays out as [4, 2048, 11008]
  (Proof/BlockProduct.lean: one block; Proof/EntryArrays.lean: the operand arrays; Proof/RegionResult.lean: the 344
  blocks tile the result; Proof/KernelValue.lean: the run). The reference contracts the activations with the same
  dequantized rows in one step and adds the bias (Proof/ReferenceValue.lean). At the ideal instance narrowing a float
  is the identity and both contractions are the same exact sum over k, term by term in the same order, so no law of
  arithmetic beyond that identity is needed and the finiteness of the inputs is never used. The kernel's
  idealization rewrote nothing, so there is nothing to preserve.
-/
import proofs.«419120_j33406255628618_3_alg».proof.Defs
import proofs.«419120_j33406255628618_3_alg».proof.Proof.Gen.Kernel
import proofs.«419120_j33406255628618_3_alg».proof.Proof.Gen.Kernel.Skeleton
import proofs.«419120_j33406255628618_3_alg».proof.Proof.Gen.Kernel.Launch
import proofs.«419120_j33406255628618_3_alg».proof.Proof.Gen.Kernel.Points
import proofs.«419120_j33406255628618_3_alg».proof.Proof.Gen.Kernel.Frame
import proofs.«419120_j33406255628618_3_alg».proof.Proof.Gen.KernelIdeal
import proofs.«419120_j33406255628618_3_alg».proof.Proof.Gen.KernelIdeal.Skeleton
import proofs.«419120_j33406255628618_3_alg».proof.Proof.Gen.KernelIdeal.Launch
import proofs.«419120_j33406255628618_3_alg».proof.Proof.Gen.KernelIdeal.Points
import proofs.«419120_j33406255628618_3_alg».proof.Proof.Gen.KernelIdeal.Frame
import proofs.«419120_j33406255628618_3_alg».proof.Proof.Gen.ReferenceIdeal
import proofs.«419120_j33406255628618_3_alg».proof.Proof.Gen.Pre_finite_inputs
import proofs.«419120_j33406255628618_3_alg».proof.Proof.Gen.ReferenceIdeal.Run
import proofs.«419120_j33406255628618_3_alg».proof.Proof.Gen.ReferenceIdeal.Read
import proofs.«419120_j33406255628618_3_alg».proof.Proof.KernelValue
import proofs.«419120_j33406255628618_3_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both runs end with the layer's function of the arguments: the kernel's result by
    its blocks, the reference's by its stages; the two dequantized weight arrays are one term of the codes and scales. -/
theorem algebraic : Cert.algebraic_KernelIdeal_ReferenceIdeal := by
  intro m ρ m' ρ' _ hagree
  refine ⟨_, Cert.KernelIdeal.QLinear.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _ _).trans ?_
  rw [Cert.ReferenceIdeal.QLinear.result_eq_layer, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
